-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S_ : Shape := ⟨0, ![]⟩

class Facts : Prop where
  bcast_S_S1x512x512x128 : S_.BroadcastsInDim S1x512x512x128 (![] : Fin 0 → Fin S1x512x512x128.rank)
  reducesTo_S1x512x512x128_S_d0_1_2_3 : S1x512x512x128.ReducesTo [0, 1, 2, 3] S_
  h_S_ : 0 < S_.numel
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x512x512x128 .f32) (main_arg1 : FVec F S512x128 .f32) (main_arg2 : FVec F S128x512 .f32) (main_arg3 : FVec F S512 .f32) (main_arg4 : FVec F S128 .f32) (main_arg5 : FVec F S128 .f32) (main_arg6 : FVec F S128 .f32) : IVec S_ 1 :=
  let main_v0 : FVec F S1x512x512x128 .f32 := Host.absf main_arg0
  let main_cst : FVec F S_ .f32 := constant S_ .f32 0x7F800000#32
  let main_v1 : FVec F S1x512x512x128 .f32 := broadcastInDim S1x512x512x128 ![] bcast_S_S1x512x512x128 main_cst
  let main_v2 : IVec S1x512x512x128 1 := cmpf .olt main_v0 main_v1
  let main_c : IVec S_ 1 := constantI S_ 1 1#1
  let main_v3 : IVec S_ 1 := (fun x v => Host.reduce IntOp.andi x v reducesTo_S1x512x512x128_S_d0_1_2_3 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S262144x128 : Shape := ⟨2, ![262144, 128]⟩
abbrev S1x512 : Shape := ⟨2, ![1, 512]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S4096x512 : Shape := ⟨2, ![4096, 512]⟩

abbrev nBuf : Space → Nat
  | .hbm => 18
  | .vmem => 10
  | .smem => 0
  | _ => 0

abbrev bufTy : (tb : Table) → Fin (tcTables nBuf tb) → BufTy
  | .hbm, ⟨0, _⟩ => ⟨S1x512x512x128, .f32⟩
  | .hbm, ⟨1, _⟩ => ⟨S512x128, .f32⟩
  | .hbm, ⟨2, _⟩ => ⟨S128x512, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S262144x128, .f32⟩
  | .hbm, ⟨8, _⟩ => ⟨S128x512, .f32⟩
  | .hbm, ⟨9, _⟩ => ⟨S128x512, .bf16⟩
  | .hbm, ⟨10, _⟩ => ⟨S512x128, .f32⟩
  | .hbm, ⟨11, _⟩ => ⟨S512x128, .bf16⟩
  | .hbm, ⟨12, _⟩ => ⟨S1x512, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S262144x128, .f32⟩
  | .hbm, ⟨17, _⟩ => ⟨S1x512x512x128, .f32⟩
  | .local _ .vmem, ⟨0, _⟩ => ⟨S4096x128, .f32⟩
  | .local _ .vmem, ⟨1, _⟩ => ⟨S4096x128, .f32⟩
  | .local _ .vmem, ⟨2, _⟩ => ⟨S128x512, .bf16⟩
  | .local _ .vmem, ⟨3, _⟩ => ⟨S512x128, .bf16⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S1x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x512x512x128_S262144x128 : S1x512x512x128.ShapeCasts S262144x128
  transposes_S512x128_S128x512_1_0 : S512x128.Transposes [1, 0] S128x512
  bitsLt_bf16_f32 : FTy.bits .bf16 < FTy.bits .f32
  transposes_S128x512_S512x128_1_0 : S128x512.Transposes [1, 0] S512x128
  shapeCasts_S512_S1x512 : S512.ShapeCasts S1x512
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S262144x128_S1x512x512x128 : S262144x128.ShapeCasts S1x512x512x128
  dot_S4096x128_S128x512_S4096x512_1_0_0_1_n_n_wf : DotDims.WF S4096x128 S128x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S262144x128.size a
  hwx0_7 : ∀ i : grid0.Coords, EltTy.bits .f32 = 32 ∨ (Rect.block (s := S262144x128) S4096x128.size (cc0_transform_7 i) (hinb0_7 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x512x512x128 : Shape := ⟨4, ![1, 512, 512, 128]⟩
abbrev S512x128 : Shape := ⟨2, ![512, 128]⟩
abbrev S128x512 : Shape := ⟨2, ![128, 512]⟩
abbrev S512 : Shape := ⟨1, ![512]⟩
abbrev S128 : Shape := ⟨1, ![128]⟩
abbrev S_ : Shape := ⟨0, ![]⟩
abbrev S1x512x512 : Shape := ⟨3, ![1, 512, 512]⟩
abbrev S1x512x512x1 : Shape := ⟨4, ![1, 512, 512, 1]⟩
abbrev S1x1x1x128 : Shape := ⟨4, ![1, 1, 1, 128]⟩
abbrev S1x512x512x512 : Shape := ⟨4, ![1, 512, 512, 512]⟩
abbrev S1x1x1x512 : Shape := ⟨4, ![1, 1, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x512x512x128, .f32⟩
  | .hbm, ⟨1, _⟩ => ⟨S512x128, .f32⟩
  | .hbm, ⟨2, _⟩ => ⟨S128x512, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1x512x512, .f32⟩
  | .hbm, ⟨9, _⟩ => ⟨S1x512x512x1, .f32⟩
  | .hbm, ⟨10, _⟩ => ⟨S_, .f32⟩
  | .hbm, ⟨11, _⟩ => ⟨S1x512x512x1, .f32⟩
  | .hbm, ⟨12, _⟩ => ⟨S1x512x512x1, .f32⟩
  | .hbm, ⟨13, _⟩ => ⟨S1x512x512x128, .f32⟩
  | .hbm, ⟨14, _⟩ => ⟨S1x512x512x128, .f32⟩
  | .hbm, ⟨15, _⟩ => ⟨S1x512x512x128, .f32⟩
  | .hbm, ⟨16, _⟩ => ⟨S_, .f32⟩
  | .hbm, ⟨17, _⟩ => ⟨S1x512x512, .f32⟩
  | .hbm, ⟨18, _⟩ => ⟨S1x512x512x1, .f32⟩
  | .hbm, ⟨19, _⟩ => ⟨S_, .f32⟩
  | .hbm, ⟨20, _⟩ => ⟨S1x512x512x1, .f32⟩
  | .hbm, ⟨21, _⟩ => ⟨S1x512x512x1, .f32⟩
  | .hbm, ⟨22, _⟩ => ⟨S1x512x512x128, .f32⟩
  | .hbm, ⟨23, _⟩ => ⟨S1x512x512x128, .f32⟩
  | .hbm, ⟨24, _⟩ => ⟨S_, .f32⟩
  | .hbm, ⟨25, _⟩ => ⟨S1x512x512x1, .f32⟩
  | .hbm, ⟨26, _⟩ => ⟨S1x512x512x1, .f32⟩
  | .hbm, ⟨27, _⟩ => ⟨S1x512x512x1, .f32⟩
  | .hbm, ⟨28, _⟩ => ⟨S1x512x512x128, .f32⟩
  | .hbm, ⟨29, _⟩ => ⟨S1x512x512x128, .f32⟩
  | .hbm, ⟨30, _⟩ => ⟨S1x1x1x128, .f32⟩
  | .hbm, ⟨31, _⟩ => ⟨S1x512x512x128, .f32⟩
  | .hbm, ⟨32, _⟩ => ⟨S1x512x512x128, .f32⟩
  | .hbm, ⟨33, _⟩ => ⟨S1x1x1x128, .f32⟩
  | .hbm, ⟨34, _⟩ => ⟨S1x512x512x128, .f32⟩
  | .hbm, ⟨35, _⟩ => ⟨S1x512x512x128, .f32⟩
  | .hbm, ⟨36, _⟩ => ⟨S1x512x512x512, .f32⟩
  | .hbm, ⟨37, _⟩ => ⟨S1x1x1x512, .f32⟩
  | .hbm, ⟨38, _⟩ => ⟨S1x512x512x512, .f32⟩
  | .hbm, ⟨39, _⟩ => ⟨S1x512x512x512, .f32⟩
  | .hbm, ⟨40, _⟩ => ⟨S_, .f32⟩
  | .hbm, ⟨41, _⟩ => ⟨S1x512x512x512, .f32⟩
  | .hbm, ⟨42, _⟩ => ⟨S1x512x512x512, .f32⟩
  | .hbm, ⟨43, _⟩ => ⟨S1x512x512x128, .f32⟩
  | .hbm, ⟨44, _⟩ => ⟨S1x1x1x128, .f32⟩
  | .hbm, ⟨45, _⟩ => ⟨S1x512x512x128, .f32⟩
  | .hbm, ⟨46, _⟩ => ⟨S1x512x512x128, .f32⟩
  | _, _ => ⟨S1x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S1x512x512x128_S1x512x512_d3 : S1x512x512x128.ReducesTo [3] S1x512x512
  h_S_ : 0 < S_.numel
  bcast_S1x512x512_S1x512x512x1_0_1_2 : S1x512x512.BroadcastsInDim S1x512x512x1 (![0, 1, 2] : Fin 3 → Fin S1x512x512x1.rank)
  bcast_S_S1x512x512x1 : S_.BroadcastsInDim S1x512x512x1 (![] : Fin 0 → Fin S1x512x512x1.rank)
  bcast_S1x512x512x1_S1x512x512x128_0_1_2_3 : S1x512x512x1.BroadcastsInDim S1x512x512x128 (![0, 1, 2, 3] : Fin 4 → Fin S1x512x512x128.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  bcast_S512_S1x1x1x512_3 : S512.BroadcastsInDim S1x1x1x512 (![3] : Fin 1 → Fin S1x1x1x512.rank)
  bcast_S1x1x1x512_S1x512x512x512_0_1_2_3 : S1x1x1x512.BroadcastsInDim S1x512x512x512 (![0, 1, 2, 3] : Fin 4 → Fin S1x512x512x512.rank)
  bcast_S_S1x512x512x512 : S_.BroadcastsInDim S1x512x512x512 (![] : Fin 0 → Fin S1x512x512x512.rank)
  dot_S1x512x512x128_S512x128_S1x512x512x512_3_1_012_0_n_n_wf : DotDims.WF S1x512x512x128 S512x128 S1x512x512x512 [3] [1] [0, 1, 2] [0] [] []
  dot_S1x512x512x512_S128x512_S1x512x512x128_3_1_012_0_n_n_wf : DotDims.WF S1x512x512x512 S128x512 S1x512x512x128 [3] [1] [0, 1, 2] [0] [] []

variable [Facts₀]

def dot_S1x512x512x128_S512x128_S1x512x512x512_3_1_012_0_n_n : DotDims S1x512x512x128 S512x128 S1x512x512x512 where
  lhsContracting := [3]
  rhsContracting := [1]
  lhsNonContracting := [0, 1, 2]
  rhsNonContracting := [0]
  lhsBatch := []
  rhsBatch := []
  wf := dot_S1x512x512x128_S512x128_S1x512x512x512_3_1_012_0_n_n_wf
def dot_S1x512x512x512_S128x512_S1x512x512x128_3_1_012_0_n_n : DotDims S1x512x512x512 S128x512 S1x512x512x128 where
  lhsContracting := [3]
  rhsContracting := [1]
  lhsNonContracting := [0, 1, 2]
  rhsNonContracting := [0]
  lhsBatch := []
  rhsBatch := []
  wf := dot_S1x512x512x512_S128x512_S1x512x512x128_3_1_012_0_n_n_wf

class Facts : Prop extends Facts₀ where

variable [Facts]
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.RowMlp.lean ====
/-
  The function both programs compute, one row at a time.

  A row `x : Fin 128 → EReal` is first normalised: with mean `μ = (Σ_d x d) / 128` and variance
  `σ² = (Σ_d (x d - μ)²) / 128`, the normalised row is `(x d - μ) · (σ² + ε)^(-1/2) · wn d + bn d`. It is then sent
  through two linear maps with a rectifier between them: `hid j = max (Σ_d nrm d · w1 j d + b1 j) 0` for the 512 hidden
  units, and `out e = Σ_j hid j · w2 e j + b2 e` for the 128 outputs. The three constants are kept as the float words the
  programs print (128, ε ≈ 1e-5, and 0), read at the ideal values; the same word stands on both sides, so it is never
  evaluated.

  The whole result over the `[1, 512, 512, 128]` input applies this to every row `x[0, a, b, ·]`.
-/
import Idealize.ShloMosaic.PureOps.Ideal
import Idealize.ShloMosaic.Lib.ValueIdx

noncomputable section

namespace Cert.RowMlp

open Idealize.ShloMosaic Idealize.ShloMosaic.ValueIdx

/-- The row length, as the float word both programs divide by. -/
abbrev len : EReal := Ideal.ofBits .f32 0x43000000#32
/-- The variance's offset, as the float word both programs add. -/
abbrev eps : EReal := Ideal.ofBits .f32 0x3727C5AC#32
/-- The rectifier's floor, as the float word both programs compare with. -/
abbrev floor0 : EReal := Ideal.ofBits .f32 0x00000000#32

/-- The mean of a row. -/
def mean (x : Fin 128 → EReal) : EReal := Ideal.div (∑ d : Fin 128, x d) len

/-- A row's entry less the row's mean. -/
def centred (x : Fin 128 → EReal) (d : Fin 128) : EReal := x d - mean x

/-- The mean of the squares of the centred row. -/
def variance (x : Fin 128 → EReal) : EReal := Ideal.div (∑ d : Fin 128, centred x d * centred x d) len

/-- The normalised row, scaled by `wn` and shifted by `bn`. -/
def normed (x wn bn : Fin 128 → EReal) (d : Fin 128) : EReal :=
  centred x d * Ideal.rsqrt (variance x + eps) * wn d + bn d

/-- The hidden units: the first linear map of the normalised row, rectified. -/
def hidden (x : Fin 128 → EReal) (w1 : Fin 512 → Fin 128 → EReal) (b1 : Fin 512 → EReal) (wn bn : Fin 128 → EReal)
    (j : Fin 512) : EReal :=
  max ((∑ d : Fin 128, normed x wn bn d * w1 j d) + b1 j) floor0

/-- The output row: the second linear map of the hidden units. -/
def out (x : Fin 128 → EReal) (w1 : Fin 512 → Fin 128 → EReal) (w2 : Fin 128 → Fin 512 → EReal) (b1 : Fin 512 → EReal)
    (b2 wn bn : Fin 128 → EReal) (e : Fin 128) : EReal :=
  (∑ j : Fin 512, hidden x w1 b1 wn bn j * w2 e j) + b2 e

/-- The whole result, index by index, as a function of the seven argument arrays: the output row of `x[0, a, b, ·]`
    at `e`. -/
def G (x : (⟨4, ![1, 512, 512, 128]⟩ : Shape).Idx → EReal) (w1 : (⟨2, ![512, 128]⟩ : Shape).Idx → EReal)
    (w2 : (⟨2, ![128, 512]⟩ : Shape).Idx → EReal) (b1 : (⟨1, ![512]⟩ : Shape).Idx → EReal)
    (b2 wn bn : (⟨1, ![128]⟩ : Shape).Idx → EReal) : (⟨4, ![1, 512, 512, 128]⟩ : Shape).Idx → EReal := fun i =>
  out (fun d => x (ix4 (0 : Fin 1) (i 1) (i 2) d)) (fun j d => w1 (ix2 j d)) (fun e j => w2 (ix2 e j)) (fun j => b1 (ix1 j))
    (fun e => b2 (ix1 e)) (fun d => wn (ix1 d)) (fun d => bn (ix1 d)) (i 3)

/-- The same over the rows laid flat, `[262144, 128]`, with the two weight matrices given transposed and the four
    vectors as one-row matrices: what the kernel's region sees. -/
def Gflat (xf : (⟨2, ![262144, 128]⟩ : Shape).Idx → EReal) (w1t : (⟨2, ![128, 512]⟩ : Shape).Idx → EReal)
    (w2t : (⟨2, ![512, 128]⟩ : Shape).Idx → EReal) (b1r : (⟨2, ![1, 512]⟩ : Shape).Idx → EReal)
    (b2r wnr bnr : (⟨2, ![1, 128]⟩ : Shape).Idx → EReal) : (⟨2, ![262144, 128]⟩ : Shape).Idx → EReal := fun i =>
  out (fun d => xf (ix2 (i 0) d)) (fun j d => w1t (ix2 d j)) (fun e j => w2t (ix2 j e)) (fun j => b1r (ix2 (0 : Fin 1) j))
    (fun e => b2r (ix2 (0 : Fin 1) e)) (fun d => wnr (ix2 (0 : Fin 1) d)) (fun d => bnr (ix2 (0 : Fin 1) d)) (i 1)

end Cert.RowMlp

end
-- ==== Proof.KernelRow.lean ====
/-
  The kernel's body, read at one entry of its output block.

  At the ideal values a matrix product into a zero accumulator is the plain sum of products over the contracted axis,
  a lane sum is the sum over the row's entries, a change of float format is the identity, and the keepdims column forms
  (a vector cast to a column, a column or a one-row matrix broadcast over the block) read the entry they copy. Put
  together, entry `(p, q)` of the body's stored block is the row function `Cert.RowMlp.out` of row `p` of the loaded
  block, at `q`, with the weights read through their transposed layout.
-/
import proofs.«139840_j55173149884461_1_alg».proof.Proof.Gen.KernelIdeal.Skeleton
import proofs.«139840_j55173149884461_1_alg».proof.Proof.LibColumns
import proofs.«139840_j55173149884461_1_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.LibColumns

/-! ## The two matrix products at an entry -/

/-- First product, left operand: the row coordinate is the output's. -/
theorem lhs_first_0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
/-- First product, left operand: the column coordinate is the contracted one. -/
theorem lhs_first_1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
/-- First product, right operand: the row coordinate is the contracted one. -/
theorem rhs_first_0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
/-- First product, right operand: the column coordinate is the output's. -/
theorem rhs_first_1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- The first product into the zero accumulator, at `(p, j)`: the sum over the 128 contracted entries. -/
theorem first_product_apply (a : FVec Ideal S4096x128 .bf16) (b : FVec Ideal S128x512 .bf16) (p : Fin 4096) (j : Fin 512) :
    matmul dot_S4096x128_S128x512_S4096x512_1_0_0_1_n_n none a b (constant S4096x512 .f32 0x00000000#32) (ix2 p j)
      = ∑ d : Fin 128, a (ix2 p d) * b (ix2 d j) := by
  simp only [matmul]
  rw [Ideal.matmul_constant_zero_apply, ← Equiv.sum_comp (contrEquiv1 dot_S4096x128_S128x512_S4096x512_1_0_0_1_n_n 128 rfl rfl).symm]
  refine Finset.sum_congr rfl fun k _ => ?_
  have hk := contrEquiv1_symm_val dot_S4096x128_S128x512_S4096x512_1_0_0_1_n_n 128 rfl rfl k
  have el : dot_S4096x128_S128x512_S4096x512_1_0_0_1_n_n.lhsIdx (ix2 p j) ((contrEquiv1 dot_S4096x128_S128x512_S4096x512_1_0_0_1_n_n 128 rfl rfl).symm k) = ix2 p k := funext fun ax => Fin.ext (by
    match ax with
    | ⟨0, _⟩ => exact lhs_first_0 _ _
    | ⟨1, _⟩ => exact (lhs_first_1 _ _).trans hk)
  have er : dot_S4096x128_S128x512_S4096x512_1_0_0_1_n_n.rhsIdx (ix2 p j) ((contrEquiv1 dot_S4096x128_S128x512_S4096x512_1_0_0_1_n_n 128 rfl rfl).symm k) = ix2 k j := funext fun ax => Fin.ext (by
    match ax with
    | ⟨0, _⟩ => exact (rhs_first_0 _ _).trans hk
    | ⟨1, _⟩ => exact rhs_first_1 _ _)
  rw [el, er]

/-- Second product, left operand: the row coordinate is the output's. -/
theorem lhs_second_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
/-- Second product, left operand: the column coordinate is the contracted one. -/
theorem lhs_second_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
/-- Second product, right operand: the row coordinate is the contracted one. -/
theorem rhs_second_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
/-- Second product, right operand: the column coordinate is the output's. -/
theorem rhs_second_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The second product into the zero accumulator, at `(p, e)`: the sum over the 512 contracted entries. -/
theorem second_product_apply (a : FVec Ideal S4096x512 .bf16) (b : FVec Ideal S512x128 .bf16) (p : Fin 4096) (e : Fin 128) :
    matmul dot_S4096x512_S512x128_S4096x128_1_0_0_1_n_n none a b (constant S4096x128 .f32 0x00000000#32) (ix2 p e)
      = ∑ j : Fin 512, a (ix2 p j) * b (ix2 j e) := by
  simp only [matmul]
  rw [Ideal.matmul_constant_zero_apply, ← Equiv.sum_comp (contrEquiv1 dot_S4096x512_S512x128_S4096x128_1_0_0_1_n_n 512 rfl rfl).symm]
  refine Finset.sum_congr rfl fun k _ => ?_
  have hk := contrEquiv1_symm_val dot_S4096x512_S512x128_S4096x128_1_0_0_1_n_n 512 rfl rfl k
  have el : dot_S4096x512_S512x128_S4096x128_1_0_0_1_n_n.lhsIdx (ix2 p e) ((contrEquiv1 dot_S4096x512_S512x128_S4096x128_1_0_0_1_n_n 512 rfl rfl).symm k) = ix2 p k := funext fun ax => Fin.ext (by
    match ax with
    | ⟨0, _⟩ => exact lhs_second_0 _ _
    | ⟨1, _⟩ => exact (lhs_second_1 _ _).trans hk)
  have er : dot_S4096x512_S512x128_S4096x128_1_0_0_1_n_n.rhsIdx (ix2 p e) ((contrEquiv1 dot_S4096x512_S512x128_S4096x128_1_0_0_1_n_n 512 rfl rfl).symm k) = ix2 k e := funext fun ax => Fin.ext (by
    match ax with
    | ⟨0, _⟩ => exact (rhs_second_0 _ _).trans hk
    | ⟨1, _⟩ => exact rhs_second_1 _ _)
  rw [el, er]

/-! ## The normalisation of a row -/

/-- The lane sum of a block, at row `p`: the sum of the row's 128 entries. -/
theorem laneSum_apply (v : FVec Ideal S4096x128 .f32) (hφ : FTy.f32 = FTy.f32 ∨ FTy.f32 = FTy.bf16)
    (hacc : (0x00000000#32 : BitVec 32) = 0x00000000#32) (p : Fin 4096) :
    multiReduction .add [1] S4096 v 0x00000000#32 reduces_S4096x128_S4096 hφ hacc (ix1 p) = ∑ d : Fin 128, v (ix2 p d) :=
  rowSum_apply v 0x00000000#32 reduces_S4096x128_S4096 hφ hacc p

/-- The reciprocal square root of a vector, at an entry. -/
theorem rsqrt_apply {s : Shape} (v : FVec Ideal s .f32) (i : s.Idx) : rsqrt v i = Ideal.rsqrt (v i) := rfl

/-! ## The body's two payloads at an entry -/

/-- The hidden units' payload at `(p, j)`: hidden unit `j` of row `p` of the loaded block. The mean column is the lane
    sum over 128, cast to a column and divided; it is broadcast back and subtracted; the variance column is the lane sum
    of the squares over 128; the scale and shift rows and the bias row are one-row matrices broadcast over the block; the
    product contracts the 128 normalised entries with column `j` of the transposed weights. -/
theorem hidden_apply (x0 : FVec Ideal S4096x128 .f32) (wn bn : FVec Ideal S1x128 .f32) (w1t : FVec Ideal S128x512 .bf16)
    (b1 : FVec Ideal S1x512 .f32) (p : Fin 4096) (j : Fin 512) :
    k0_pay2 (F := Ideal) x0 wn bn w1t b1 (ix2 p j)
      = RowMlp.hidden (fun d => x0 (ix2 p d)) (fun j d => w1t (ix2 d j)) (fun j => b1 (ix2 (0 : Fin 1) j))
          (fun d => wn (ix2 (0 : Fin 1) d)) (fun d => bn (ix2 (0 : Fin 1) d)) j := by
  unfold k0_pay2
  simp only [shapeCast_self, truncf_apply, maximumf_apply, addf_apply, mulf_apply, subf_apply, divf_apply, broadcast_apply, first_product_apply,
    broadcastTo_1b_ab_apply, broadcastTo_a1_ab_apply, shapeCast_a_a1_apply, rsqrt_apply]
  rw [laneSum_apply, laneSum_apply]
  simp only [shapeCast_self, truncf_apply, maximumf_apply, addf_apply, mulf_apply, subf_apply, divf_apply, broadcast_apply, first_product_apply,
    broadcastTo_1b_ab_apply, broadcastTo_a1_ab_apply, shapeCast_a_a1_apply, rsqrt_apply]
  rw [laneSum_apply]
  rfl

/-- The stored payload at `(p, q)`: output `q` of row `p` of the loaded block: the second product contracts the 512
    hidden units with column `q` of the second transposed weights, and the bias row is added. -/
theorem out_apply (x0 : FVec Ideal S4096x128 .f32) (wn bn : FVec Ideal S1x128 .f32) (w1t : FVec Ideal S128x512 .bf16)
    (b1 : FVec Ideal S1x512 .f32) (w2t : FVec Ideal S512x128 .bf16) (b2 : FVec Ideal S1x128 .f32) (p : Fin 4096) (q : Fin 128) :
    k0_pay1 (F := Ideal) (k0_pay2 (F := Ideal) x0 wn bn w1t b1) (k0_pay3 (F := Ideal) w2t) (constant S4096x128 .f32 0x00000000#32) b2 (ix2 p q)
      = RowMlp.out (fun d => x0 (ix2 p d)) (fun j d => w1t (ix2 d j)) (fun e j => w2t (ix2 j e)) (fun j => b1 (ix2 (0 : Fin 1) j))
          (fun e => b2 (ix2 (0 : Fin 1) e)) (fun d => wn (ix2 (0 : Fin 1) d)) (fun d => bn (ix2 (0 : Fin 1) d)) q := by
  unfold k0_pay1 k0_pay3
  simp only [shapeCast_self, addf_apply, second_product_apply, broadcastTo_1b_ab_apply, hidden_apply]
  rfl

end Cert.KernelIdeal.RowValue

end
-- ==== Proof.FlatRows.lean ====
/-
  The rows laid flat and the rows in place.

  Reshaping `[262144, 128]` to `[1, 512, 512, 128]` keeps the row-major position, so the entry at `(0, a, b, e)` is the
  flat entry at `(a · 512 + b, e)`. If the flat input, the transposed weight matrices and the one-row vectors hold the
  same numbers as the arguments at the matching positions, the row function over the flat rows, reshaped, is the row
  function over the rows in place.
-/
import proofs.«139840_j55173149884461_1_alg».proof.Proof.RowMlp
import Idealize.ShloMosaic.Lib.Pipeline.Value
import Idealize.ShloMosaic.Lib.ValueIdx

noncomputable section

namespace Cert.RowMlp

open Idealize.ShloMosaic Idealize.ShloMosaic.ValueIdx

/-- The flat position of row `(a, b)`. -/
abbrev flatRow (a b : Fin 512) : Fin 262144 := ⟨a.val * 512 + b.val, by have := a.isLt; have := b.isLt; omega⟩

/-- The flat result reshaped is the result in place, when the flat operands hold the arguments' numbers. -/
theorem reshape_Gflat (x : (⟨4, ![1, 512, 512, 128]⟩ : Shape).Idx → EReal) (w1 : (⟨2, ![512, 128]⟩ : Shape).Idx → EReal)
    (w2 : (⟨2, ![128, 512]⟩ : Shape).Idx → EReal) (b1 : (⟨1, ![512]⟩ : Shape).Idx → EReal)
    (b2 wn bn : (⟨1, ![128]⟩ : Shape).Idx → EReal)
    (xf : (⟨2, ![262144, 128]⟩ : Shape).Idx → EReal) (w1t : (⟨2, ![128, 512]⟩ : Shape).Idx → EReal)
    (w2t : (⟨2, ![512, 128]⟩ : Shape).Idx → EReal) (b1r : (⟨2, ![1, 512]⟩ : Shape).Idx → EReal)
    (b2r wnr bnr : (⟨2, ![1, 128]⟩ : Shape).Idx → EReal)
    (hx : ∀ (a b : Fin 512) (d : Fin 128), xf (ix2 (flatRow a b) d) = x (ix4 (0 : Fin 1) a b d))
    (hw1 : ∀ (j : Fin 512) (d : Fin 128), w1t (ix2 d j) = w1 (ix2 j d))
    (hw2 : ∀ (e : Fin 128) (j : Fin 512), w2t (ix2 j e) = w2 (ix2 e j))
    (hb1 : ∀ j : Fin 512, b1r (ix2 (0 : Fin 1) j) = b1 (ix1 j))
    (hb2 : ∀ e : Fin 128, b2r (ix2 (0 : Fin 1) e) = b2 (ix1 e))
    (hwn : ∀ d : Fin 128, wnr (ix2 (0 : Fin 1) d) = wn (ix1 d))
    (hbn : ∀ d : Fin 128, bnr (ix2 (0 : Fin 1) d) = bn (ix1 d))
    (h : (⟨2, ![262144, 128]⟩ : Shape).ShapeCasts ⟨4, ![1, 512, 512, 128]⟩) :
    shapeCast ⟨4, ![1, 512, 512, 128]⟩ (Gflat xf w1t w2t b1r b2r wnr bnr) h = G x w1 w2 b1 b2 wn bn := by
  funext i
  obtain ⟨z, a, b, e, rfl⟩ : ∃ (z : Fin 1) (a b : Fin 512) (e : Fin 128), i = ix4 z a b e := ⟨i 0, i 1, i 2, i 3, eq_ix4 i⟩
  obtain rfl : z = 0 := Fin.eq_zero z
  refine (shapeCast_apply _ h (ix4 (0 : Fin 1) a b e) (ix2 (flatRow a b) e) (by
    rw [Shape.rowMajor_val_two, Shape.rowMajor_val_four]
    show (a.val * 512 + b.val) * 128 + e.val = (((0 : Fin 1).val * 512 + a.val) * 512 + b.val) * 128 + e.val
    simp)).trans ?_
  show out (fun d => xf (ix2 (flatRow a b) d)) (fun j d => w1t (ix2 d j)) (fun e j => w2t (ix2 j e)) (fun j => b1r (ix2 (0 : Fin 1) j))
      (fun e => b2r (ix2 (0 : Fin 1) e)) (fun d => wnr (ix2 (0 : Fin 1) d)) (fun d => bnr (ix2 (0 : Fin 1) d)) e
    = out (fun d => x (ix4 (0 : Fin 1) a b d)) (fun j d => w1 (ix2 j d)) (fun e j => w2 (ix2 e j)) (fun j => b1 (ix1 j))
      (fun e => b2 (ix1 e)) (fun d => wn (ix1 d)) (fun d => bn (ix1 d)) e
  simp only [hx, hw1, hw2, hb1, hb2, hwn, hbn]

end Cert.RowMlp

end
-- ==== Proof.KernelValue.lean ====
/-
  From the blocks to the whole result.

  The region reads the input laid flat, `[262144, 128]`, in 64 blocks of 4096 rows, with the two weight matrices
  transposed and the four vectors as one-row matrices, each read whole at every point. Point `t` stores, at entry
  `(p, q)` of its block, the row function of row `p` of its input block at `q`; that row is flat row `t · 4096 + p`,
  so what it writes back is block `t` of ONE function of the arrays the region reads, the flat result. The 64 blocks
  tile the rows (row `r` lies in block `r / 4096`), so the output array ends at the flat result. The host line after
  the region reshapes it to `[1, 512, 512, 128]`, which keeps row-major positions: flat row `a · 512 + b` lands at
  `(0, a, b, ·)`, where the argument's row `(a, b)` was taken from. Hence the program's result is the row function of
  every row of the input in place.
-/
import proofs.«139840_j55173149884461_1_alg».proof.Proof.Gen.KernelIdeal.Frame
import proofs.«139840_j55173149884461_1_alg».proof.Proof.KernelRow
import proofs.«139840_j55173149884461_1_alg».proof.Proof.RowMlp
import proofs.«139840_j55173149884461_1_alg».proof.Proof.FlatRows
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.BlockValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The arrays as the region finds them

The host lines before the region reshape the input to flat rows, transpose the two weight matrices (the change of
float format is the identity at the ideal values) and reshape the four vectors to one-row matrices. -/

theorem found_x (c : Dev nD) : (V m c main_v0 : S262144x128.Idx → EReal)
    = shapeCast S262144x128 (m ((c : Thread nD τ).loc main_arg0)) shapeCasts_S1x512x512x128_S262144x128 := by
  show StableHlo.after hostOps0 (fun b => m (c, b)) (Proc.devRef .tc main_v0) = _
  after_results <;> rfl

theorem found_w1 (c : Dev nD) : (V m c main_v2 : S128x512.Idx → EReal)
    = truncf (F := Ideal) .bf16 (transpose S128x512 [1, 0] (m ((c : Thread nD τ).loc main_arg1)) transposes_S512x128_S128x512_1_0) bitsLt_bf16_f32 := by
  show StableHlo.after hostOps0 (fun b => m (c, b)) (Proc.devRef .tc main_v2) = _
  after_results <;> rfl

theorem found_w2 (c : Dev nD) : (V m c main_v4 : S512x128.Idx → EReal)
    = truncf (F := Ideal) .bf16 (transpose S512x128 [1, 0] (m ((c : Thread nD τ).loc main_arg2)) transposes_S128x512_S512x128_1_0) bitsLt_bf16_f32 := by
  show StableHlo.after hostOps0 (fun b => m (c, b)) (Proc.devRef .tc main_v4) = _
  after_results <;> rfl

theorem found_b1 (c : Dev nD) : (V m c main_v5 : S1x512.Idx → EReal)
    = shapeCast S1x512 (m ((c : Thread nD τ).loc main_arg3)) shapeCasts_S512_S1x512 := by
  show StableHlo.after hostOps0 (fun b => m (c, b)) (Proc.devRef .tc main_v5) = _
  after_results <;> rfl

theorem found_b2 (c : Dev nD) : (V m c main_v6 : S1x128.Idx → EReal)
    = shapeCast S1x128 (m ((c : Thread nD τ).loc main_arg4)) shapeCasts_S128_S1x128 := by
  show StableHlo.after hostOps0 (fun b => m (c, b)) (Proc.devRef .tc main_v6) = _
  after_results <;> rfl

theorem found_wn (c : Dev nD) : (V m c main_v7 : S1x128.Idx → EReal)
    = shapeCast S1x128 (m ((c : Thread nD τ).loc main_arg5)) shapeCasts_S128_S1x128 := by
  show StableHlo.after hostOps0 (fun b => m (c, b)) (Proc.devRef .tc main_v7) = _
  after_results <;> rfl

theorem found_bn (c : Dev nD) : (V m c main_v8 : S1x128.Idx → EReal)
    = shapeCast S1x128 (m ((c : Thread nD τ).loc main_arg6)) shapeCasts_S128_S1x128 := by
  show StableHlo.after hostOps0 (fun b => m (c, b)) (Proc.devRef .tc main_v8) = _
  after_results <;> rfl

/-- The arrays the region reads, at their literal types. -/
abbrev xf (c : Dev nD) : FVec Ideal S262144x128 .f32 := V m c main_v0
abbrev w1t (c : Dev nD) : FVec Ideal S128x512 .bf16 := V m c main_v2
abbrev w2t (c : Dev nD) : FVec Ideal S512x128 .bf16 := V m c main_v4
abbrev b1r (c : Dev nD) : FVec Ideal S1x512 .f32 := V m c main_v5
abbrev b2r (c : Dev nD) : FVec Ideal S1x128 .f32 := V m c main_v6
abbrev wnr (c : Dev nD) : FVec Ideal S1x128 .f32 := V m c main_v7
abbrev bnr (c : Dev nD) : FVec Ideal S1x128 .f32 := V m c main_v8

/-- Flat row `a · 512 + b` of the reshaped input is row `(a, b)` of the argument. -/
theorem xf_apply (c : Dev nD) (a b : Fin 512) (d : Fin 128) :
    xf m c (ix2 (RowMlp.flatRow a b) d) = m ((c : Thread nD τ).loc main_arg0) (ix4 (0 : Fin 1) a b d) := by
  show (V m c main_v0 : S262144x128.Idx → EReal) (ix2 (RowMlp.flatRow a b) d) = _
  rw [found_x]
  refine shapeCast_apply _ _ _ (ix4 (0 : Fin 1) a b d) ?_
  show (S1x512x512x128.rowMajor (ix4 (0 : Fin 1) a b d)).val = (S262144x128.rowMajor (ix2 (RowMlp.flatRow a b) d)).val
  rw [Shape.rowMajor_val_two, Shape.rowMajor_val_four]
  show (((0 : Fin 1).val * 512 + a.val) * 512 + b.val) * 128 + d.val = (a.val * 512 + b.val) * 128 + d.val
  simp

/-- The first weight matrix is found transposed. -/
theorem w1t_apply (c : Dev nD) (j : Fin 512) (d : Fin 128) :
    w1t m c (ix2 d j) = m ((c : Thread nD τ).loc main_arg1) (ix2 j d) := by
  show (V m c main_v2 : S128x512.Idx → EReal) (ix2 d j) = _
  rw [found_w1, truncf_apply]
  exact transpose_ix2_apply _ _ d j

/-- The second weight matrix is found transposed. -/
theorem w2t_apply (c : Dev nD) (e : Fin 128) (j : Fin 512) :
    w2t m c (ix2 j e) = m ((c : Thread nD τ).loc main_arg2) (ix2 e j) := by
  show (V m c main_v4 : S512x128.Idx → EReal) (ix2 j e) = _
  rw [found_w2, truncf_apply]
  exact transpose_ix2_apply _ _ j e

theorem b1r_apply (c : Dev nD) (j : Fin 512) :
    b1r m c (ix2 (0 : Fin 1) j) = m ((c : Thread nD τ).loc main_arg3) (ix1 j) := by
  show (V m c main_v5 : S1x512.Idx → EReal) (ix2 (0 : Fin 1) j) = _
  rw [found_b1]
  exact shapeCast_a_1a_apply _ _ 0 j

theorem b2r_apply (c : Dev nD) (e : Fin 128) :
    b2r m c (ix2 (0 : Fin 1) e) = m ((c : Thread nD τ).loc main_arg4) (ix1 e) := by
  show (V m c main_v6 : S1x128.Idx → EReal) (ix2 (0 : Fin 1) e) = _
  rw [found_b2]
  exact shapeCast_a_1a_apply _ _ 0 e

theorem wnr_apply (c : Dev nD) (d : Fin 128) :
    wnr m c (ix2 (0 : Fin 1) d) = m ((c : Thread nD τ).loc main_arg5) (ix1 d) := by
  show (V m c main_v7 : S1x128.Idx → EReal) (ix2 (0 : Fin 1) d) = _
  rw [found_wn]
  exact shapeCast_a_1a_apply _ _ 0 d

theorem bnr_apply (c : Dev nD) (d : Fin 128) :
    bnr m c (ix2 (0 : Fin 1) d) = m ((c : Thread nD τ).loc main_arg6) (ix1 d) := by
  show (V m c main_v8 : S1x128.Idx → EReal) (ix2 (0 : Fin 1) d) = _
  rw [found_bn]
  exact shapeCast_a_1a_apply _ _ 0 d

/-- The region's result over the flat rows: the row function of each flat row. -/
abbrev flatResult (c : Dev nD) : S262144x128.Idx → EReal :=
  RowMlp.Gflat (xf m c) (w1t m c) (w2t m c) (b1r m c) (b2r m c) (wnr m c) (bnr m c)

/-! ## The blocks of a grid point

Point `t` of the 64 reads rows `t · 4096 … t · 4096 + 4095` of the flat input and writes the same rows of the result; the
weights and the vectors are read whole at every point. -/

theorem hz : (![0, 0] : Fin 2 → Nat) = fun _ => 0 := funext fun a => by fin_cases a <;> rfl

/-- The printed index maps, decided over the 64 points. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input blocks of point `t`, at their literal types. -/
abbrev blk0 (c : Dev nD) (t : Fin cfg0.N) : FVec Ideal S4096x128 .f32 := iblk m c 0 t
abbrev blk1 (c : Dev nD) (t : Fin cfg0.N) : FVec Ideal S128x512 .bf16 := iblk m c 1 t
abbrev blk2 (c : Dev nD) (t : Fin cfg0.N) : FVec Ideal S512x128 .bf16 := iblk m c 2 t
abbrev blk3 (c : Dev nD) (t : Fin cfg0.N) : FVec Ideal S1x512 .f32 := iblk m c 3 t
abbrev blk4 (c : Dev nD) (t : Fin cfg0.N) : FVec Ideal S1x128 .f32 := iblk m c 4 t
abbrev blk5 (c : Dev nD) (t : Fin cfg0.N) : FVec Ideal S1x128 .f32 := iblk m c 5 t
abbrev blk6 (c : Dev nD) (t : Fin cfg0.N) : FVec Ideal S1x128 .f32 := iblk m c 6 t

theorem rowOf_lt (t : Fin cfg0.N) (p : Fin 4096) : t.val * 4096 + p.val < 262144 := by
  have h : t.val < 64 := lt_of_lt_of_eq t.isLt N_0
  have := p.isLt
  omega

/-- The flat row that row `p` of point `t`'s block is. -/
abbrev rowOf (t : Fin cfg0.N) (p : Fin 4096) : Fin 262144 := ⟨t.val * 4096 + p.val, rowOf_lt t p⟩

theorem blk0_apply (c : Dev nD) (t : Fin cfg0.N) (p : Fin 4096) (d : Fin 128) :
    blk0 m c t (ix2 p d) = xf m c (ix2 (rowOf t p) d) := by
  obtain ⟨e0, e1, -⟩ := idx_facts t
  show V m c main_v0 (((cfg0.win 0).blk t).view.emb (ix2 p d)) = V m c main_v0 (ix2 (rowOf t p) d)
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * d.val = d.val; omega

theorem blk1_apply (c : Dev nD) (t : Fin cfg0.N) (d : Fin 128) (j : Fin 512) : blk1 m c t (ix2 d j) = w1t m c (ix2 d j) := by
  obtain ⟨-, -, -, -, e0, e1, -⟩ := idx_facts t
  show V m c main_v2 (((cfg0.win 1).blk t).view.emb (ix2 d j)) = V m c main_v2 (ix2 d j)
  refine congrArg (V m c main_v2) (funext fun a => Fin.ext ?_)
  match a with
  | ⟨0, _⟩ => show win0_1.index t (0 : Fin 2) * 128 + 1 * d.val = d.val; omega
  | ⟨1, _⟩ => show win0_1.index t (1 : Fin 2) * 512 + 1 * j.val = j.val; omega

theorem blk2_apply (c : Dev nD) (t : Fin cfg0.N) (j : Fin 512) (e : Fin 128) : blk2 m c t (ix2 j e) = w2t m c (ix2 j e) := by
  obtain ⟨-, -, -, -, -, -, e0, e1, -⟩ := idx_facts t
  show V m c main_v4 (((cfg0.win 2).blk t).view.emb (ix2 j e)) = V m c main_v4 (ix2 j e)
  refine congrArg (V m c main_v4) (funext fun a => Fin.ext ?_)
  match a with
  | ⟨0, _⟩ => show win0_2.index t (0 : Fin 2) * 512 + 1 * j.val = j.val; omega
  | ⟨1, _⟩ => show win0_2.index t (1 : Fin 2) * 128 + 1 * e.val = e.val; omega

theorem blk3_apply (c : Dev nD) (t : Fin cfg0.N) (u : Fin 1) (j : Fin 512) : blk3 m c t (ix2 u j) = b1r m c (ix2 u j) := by
  obtain ⟨-, -, -, -, -, -, -, -, e0, e1, -⟩ := idx_facts t
  show V m c main_v5 (((cfg0.win 3).blk t).view.emb (ix2 u j)) = V m c main_v5 (ix2 u j)
  refine congrArg (V m c main_v5) (funext fun a => Fin.ext ?_)
  match a with
  | ⟨0, _⟩ => show win0_3.index t (0 : Fin 2) * 1 + 1 * u.val = u.val; omega
  | ⟨1, _⟩ => show win0_3.index t (1 : Fin 2) * 512 + 1 * j.val = j.val; omega

theorem blk4_apply (c : Dev nD) (t : Fin cfg0.N) (u : Fin 1) (e : Fin 128) : blk4 m c t (ix2 u e) = b2r m c (ix2 u e) := by
  obtain ⟨-, -, -, -, -, -, -, -, -, -, e0, e1, -⟩ := idx_facts t
  show V m c main_v6 (((cfg0.win 4).blk t).view.emb (ix2 u e)) = V m c main_v6 (ix2 u e)
  refine congrArg (V m c main_v6) (funext fun a => Fin.ext ?_)
  match a with
  | ⟨0, _⟩ => show win0_4.index t (0 : Fin 2) * 1 + 1 * u.val = u.val; omega
  | ⟨1, _⟩ => show win0_4.index t (1 : Fin 2) * 128 + 1 * e.val = e.val; omega

theorem blk5_apply (c : Dev nD) (t : Fin cfg0.N) (u : Fin 1) (d : Fin 128) : blk5 m c t (ix2 u d) = wnr m c (ix2 u d) := by
  obtain ⟨-, -, -, -, -, -, -, -, -, -, -, -, e0, e1, -⟩ := idx_facts t
  show V m c main_v7 (((cfg0.win 5).blk t).view.emb (ix2 u d)) = V m c main_v7 (ix2 u d)
  refine congrArg (V m c main_v7) (funext fun a => Fin.ext ?_)
  match a with
  | ⟨0, _⟩ => show win0_5.index t (0 : Fin 2) * 1 + 1 * u.val = u.val; omega
  | ⟨1, _⟩ => show win0_5.index t (1 : Fin 2) * 128 + 1 * d.val = d.val; omega

theorem blk6_apply (c : Dev nD) (t : Fin cfg0.N) (u : Fin 1) (d : Fin 128) : blk6 m c t (ix2 u d) = bnr m c (ix2 u d) := by
  obtain ⟨-, -, -, -, -, -, -, -, -, -, -, -, -, -, e0, e1⟩ := idx_facts t
  show V m c main_v8 (((cfg0.win 6).blk t).view.emb (ix2 u d)) = V m c main_v8 (ix2 u d)
  refine congrArg (V m c main_v8) (funext fun a => Fin.ext ?_)
  match a with
  | ⟨0, _⟩ => show win0_6.index t (0 : Fin 2) * 1 + 1 * u.val = u.val; omega
  | ⟨1, _⟩ => show win0_6.index t (1 : Fin 2) * 128 + 1 * d.val = d.val; omega

/-- Entry `(p, q)` of the output block of point `t` sits at flat row `t · 4096 + p`, column `q`. -/
theorem emb_out (t : Fin cfg0.N) (p : Fin 4096) (q : Fin 128) :
    ((cfg0.win 7).blk t).view.emb (ix2 p q) = ix2 (rowOf t p) q := by
  obtain ⟨-, -, e0, e1, -⟩ := idx_facts t
  refine funext fun a => Fin.ext ?_
  match a with
  | ⟨0, _⟩ => show win0_7.index t (0 : Fin 2) * 4096 + 1 * p.val = t.val * 4096 + p.val; omega
  | ⟨1, _⟩ => show win0_7.index t (1 : Fin 2) * 128 + 1 * q.val = q.val; omega

/-! ## What a point writes back, and the array after the run -/

/-- Point `t` writes back block `t` of the flat result: entry `(p, q)` of its stored payload is the row function of row
    `p` of its input block, which is flat row `t · 4096 + p`. -/
theorem flushed_eq (c : Dev nD) (t : Fin cfg0.N) :
    (dats m 0 c).flushed 7 t = ((cfg0.win 7).blk t).view.read (Elt Ideal) (flatResult m c) := by
  show (cfg0.win 7).cut (grid0.coords t) ((dats m 0 c).after 7 t) = _
  rw [after0_7]
  unfold out0_7
  rw [View.canon_unit_zero hz]
  simp only [View.ld_unit_zero (S := S4096x128) hz, View.ld_unit_zero (S := S1x128) hz, View.ld_unit_zero (S := S128x512) hz,
    View.ld_unit_zero (S := S1x512) hz, View.ld_unit_zero (S := S512x128) hz]
  funext y
  obtain ⟨p, q, rfl⟩ : ∃ (p : Fin 4096) (q : Fin 128), y = ix2 p q := ⟨y 0, y 1, eq_ix2 y⟩
  show k0_pay1 (F := Ideal) (k0_pay2 (F := Ideal) (blk0 m c t) (blk5 m c t) (blk6 m c t) (blk1 m c t) (blk3 m c t))
      (k0_pay3 (F := Ideal) (blk2 m c t)) (constant S4096x128 .f32 0x00000000#32) (blk4 m c t) (ix2 p q)
    = flatResult m c (((cfg0.win 7).blk t).view.emb (ix2 p q))
  rw [RowValue.out_apply, emb_out]
  show _ = RowMlp.out (fun d => xf m c (ix2 (rowOf t p) d)) (fun j d => w1t m c (ix2 d j)) (fun e j => w2t m c (ix2 j e))
      (fun j => b1r m c (ix2 (0 : Fin 1) j)) (fun e => b2r m c (ix2 (0 : Fin 1) e)) (fun d => wnr m c (ix2 (0 : Fin 1) d))
      (fun d => bnr m c (ix2 (0 : Fin 1) d)) q
  simp only [blk0_apply, blk1_apply, blk2_apply, blk3_apply, blk4_apply, blk5_apply, blk6_apply]

/-- An index of the flat result is in point `t`'s block iff each coordinate is in the block's range on its axis. -/
theorem mem_blk (t : Fin cfg0.N) (i : S262144x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v9).slice (win0_7.rect t)).set ↔ _
  rw [View.set_slice_whole, Rect.mem_set_unit]
  exact Iff.rfl

/-- Every flat row is in some point's block: row `r` in that of point `r / 4096`. -/
theorem cover (i : S262144x128.Idx) :
    ∃ t : Fin cfg0.N, (cfg0.win 7).flush t = true ∧ i ∈ ((cfg0.win 7).blk t).view.set := by
  have hi0 : (i 0).val < 262144 := (i 0).isLt
  have hi1 : (i 1).val < 128 := (i 1).isLt
  obtain ⟨t, ht⟩ : ∃ t : Fin cfg0.N, t.val = (i 0).val / 4096 :=
    ⟨⟨(i 0).val / 4096, lt_of_lt_of_eq (by omega : (i 0).val / 4096 < 64) N_0.symm⟩, rfl⟩
  obtain ⟨-, -, e0, e1, -⟩ := idx_facts t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

/-- The region's output array after the run is the flat result. -/
theorem final (c : Dev nD) : (dats m 0 c).arrAt 7 cfg0.N = flatResult m c :=
  (dats m 0 c).arrAt_eq_of_cover 7 (flatResult m c) (fun t _ => flushed_eq m c t) cover

/-! ## The host line after the region, and the run -/

/-- The program's result: the flat result reshaped to `[1, 512, 512, 128]` is the row function of every row in place. -/
theorem tail_eq (c : Dev nD) :
    Pipeline.afterTail₀ cfgs (dats m) 0 (V0 m) [hostOps1] c main_v10
      = RowMlp.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v10) = _
  after_results
  have h7 : Pipeline.withArrays spec0 c (V0 m c) (fun w => (dats m 0 c).arrAt w cfg0.N) (Proc.devRef .tc main_v9) = flatResult m c :=
    (Pipeline.withArrays_arr spec0 winFacts0.arr_inj c _ _ 7).trans (final m c)
  show shapeCast S1x512x512x128 (Pipeline.withArrays spec0 c (V0 m c) (fun w => (dats m 0 c).arrAt w cfg0.N) (Proc.devRef .tc main_v9))
      shapeCasts_S262144x128_S1x512x512x128 = _
  rw [h7]
  exact RowMlp.reshape_Gflat _ _ _ _ _ _ _ _ _ _ _ _ _ _ (xf_apply m c) (w1t_apply m c) (w2t_apply m c) (b1r_apply m c)
    (b2r_apply m c) (wnr_apply m c) (bnr_apply m c) _

/-- Every weakly fair execution of the idealized kernel program ends with its result at the row function of every row of
    the input, and its seven arguments as launched. -/
theorem run : θ_run defs (onTc (τ := τ) (main (F := Ideal))) ⟨m, fun _ => 0, ρ⟩ fun r => ∀ c : Dev nD,
      r.2.mem ((c.tc : Thread nD τ).loc main_v10)
        = RowMlp.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v10 (Pipeline.mem_restRefs_of main_v10 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.BlockValue

end
-- ==== Proof.RefRow.lean ====
/-
  The reference, read one row at a time.

  Every stage of the reference at the index `(0, a, b, ·)` depends only on the row `x[0, a, b, ·]`: the mean and the
  variance are sums over the row (the host's sum starts from the zero word, which is the real zero), the broadcasts copy
  a row's scalar or a vector's entry to every position that shares the coordinate, each contraction runs over the last
  axis of the left operand and the last axis of the weight matrix, and the rectifier is the maximum with the zero word.
  Stage by stage the values are the row function's: `mean`, `centred`, `variance`, `normed`, `hidden`, `out`.
-/
import proofs.«139840_j55173149884461_1_alg».proof.Proof.Gen.ReferenceIdeal.Read
import proofs.«139840_j55173149884461_1_alg».proof.Proof.RowMlp
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx

/-- Two rank-4 indices are equal when their four coordinates are, each by computation. -/
local macro "coords4" : tactic =>
  `(tactic| (funext ax; apply Fin.ext; match ax with | ⟨0, _⟩ => rfl | ⟨1, _⟩ => rfl | ⟨2, _⟩ => rfl | ⟨3, _⟩ => rfl))
/-- The same at rank 2 and rank 1. -/
local macro "coords2" : tactic =>
  `(tactic| (funext ax; apply Fin.ext; match ax with | ⟨0, _⟩ => rfl | ⟨1, _⟩ => rfl))
local macro "coords1" : tactic =>
  `(tactic| (funext ax; apply Fin.ext; match ax with | ⟨0, _⟩ => rfl))

variable (x0 : (⟨S1x512x512x128, .f32⟩ : BufTy).Contents (Elt Ideal)) (x1 : (⟨S512x128, .f32⟩ : BufTy).Contents (Elt Ideal))
  (x2 : (⟨S128x512, .f32⟩ : BufTy).Contents (Elt Ideal)) (x3 : (⟨S512, .f32⟩ : BufTy).Contents (Elt Ideal))
  (x4 x5 x6 : (⟨S128, .f32⟩ : BufTy).Contents (Elt Ideal))

/-- Row `(a, b)` of the input. -/
abbrev row (a b : Fin 512) : Fin 128 → EReal := fun d => x0 (ix4 (0 : Fin 1) a b d)

/-- The mean column at `(0, a, b, ·)` is the row's mean. -/
theorem mean_eq (a b : Fin 512) (u : Fin 1) :
    val_main_v3 (F := Ideal) x0 (ix4 (0 : Fin 1) a b u) = RowMlp.mean (row x0 a b) := by
  rw [val_main_v3_apply, val_main_v1_apply, val_main_v0_apply, val_main_v2_apply, val_main_cst_0_apply, val_main_cst_apply]
  have e : ∀ k : Fin 128, idx_main_v0 (idx_main_v1 (ix4 (0 : Fin 1) a b u)) k = ix4 (0 : Fin 1) a b k := fun k => by coords4
  simp only [e, Ideal.hostDivf_def, Ideal.ofBits_def, Ideal.ofBits_zero_f32, zero_add]
  rfl

/-- The centred input at `(0, a, b, d)` is the row's centred entry (the stage the variance squares). -/
theorem centred_eq (a b : Fin 512) (d : Fin 128) :
    val_main_v5 (F := Ideal) x0 (ix4 (0 : Fin 1) a b d) = RowMlp.centred (row x0 a b) d := by
  rw [val_main_v5_apply, val_main_v4_apply]
  have e : idx_main_v4 (ix4 (0 : Fin 1) a b d) = ix4 (0 : Fin 1) a b (0 : Fin 1) := by coords4
  rw [e, mean_eq]
  rfl

/-- The same for the second copy of the centred input (the stage the normalisation scales). -/
theorem centred_eq' (a b : Fin 512) (d : Fin 128) :
    val_main_v12 (F := Ideal) x0 (ix4 (0 : Fin 1) a b d) = RowMlp.centred (row x0 a b) d := by
  rw [val_main_v12_apply, val_main_v11_apply]
  have e : idx_main_v11 (ix4 (0 : Fin 1) a b d) = ix4 (0 : Fin 1) a b (0 : Fin 1) := by coords4
  rw [e, mean_eq]
  rfl

/-- The variance column at `(0, a, b, ·)` is the row's variance. -/
theorem variance_eq (a b : Fin 512) (u : Fin 1) :
    val_main_v10 (F := Ideal) x0 (ix4 (0 : Fin 1) a b u) = RowMlp.variance (row x0 a b) := by
  rw [val_main_v10_apply, val_main_v8_apply, val_main_v7_apply, val_main_v9_apply, val_main_cst_2_apply, val_main_cst_1_apply]
  have e : ∀ k : Fin 128, idx_main_v7 (idx_main_v8 (ix4 (0 : Fin 1) a b u)) k = ix4 (0 : Fin 1) a b k := fun k => by coords4
  simp only [e, val_main_v6_apply, centred_eq, Ideal.hostDivf_def, Ideal.mulf_def, Ideal.ofBits_def, Ideal.ofBits_zero_f32, zero_add]
  rfl

/-- The normalised, scaled and shifted input at `(0, a, b, d)` is the row's. -/
theorem normed_eq (a b : Fin 512) (d : Fin 128) :
    val_main_v23 (F := Ideal) x0 x5 x6 (ix4 (0 : Fin 1) a b d)
      = RowMlp.normed (row x0 a b) (fun d => x5 (ix1 d)) (fun d => x6 (ix1 d)) d := by
  rw [val_main_v23_apply, val_main_v20_apply, val_main_v17_apply, val_main_v16_apply, val_main_v15_apply, val_main_v14_apply,
    val_main_v13_apply, val_main_cst_3_apply, val_main_v19_apply, val_main_v18_apply, val_main_v22_apply, val_main_v21_apply]
  have e16 : idx_main_v16 (ix4 (0 : Fin 1) a b d) = ix4 (0 : Fin 1) a b (0 : Fin 1) := by coords4
  have e18 : idx_main_v18 (idx_main_v19 (ix4 (0 : Fin 1) a b d)) = ix1 d := by coords1
  have e21 : idx_main_v21 (idx_main_v22 (ix4 (0 : Fin 1) a b d)) = ix1 d := by coords1
  rw [e16, variance_eq, centred_eq', e18, e21]
  rfl

/-- The rectified hidden units at `(0, a, b, j)` are the row's. -/
theorem hidden_eq (a b : Fin 512) (j : Fin 512) :
    val_main_v28 (F := Ideal) x0 x1 x3 x5 x6 (ix4 (0 : Fin 1) a b j)
      = RowMlp.hidden (row x0 a b) (fun j d => x1 (ix2 j d)) (fun j => x3 (ix1 j)) (fun d => x5 (ix1 d)) (fun d => x6 (ix1 d)) j := by
  rw [val_main_v28_apply, val_main_v27_apply, val_main_v24_apply, val_main_v26_apply, val_main_v25_apply, val_main_call0_v0_apply,
    val_main_call0_cst_apply]
  have e1 : ∀ k : Fin 128, lidx_main_v24 (ix4 (0 : Fin 1) a b j) k = ix4 (0 : Fin 1) a b k := fun k => by coords4
  have e2 : ∀ k : Fin 128, ridx_main_v24 (ix4 (0 : Fin 1) a b j) k = ix2 j k := fun k => by coords2
  have e3 : idx_main_v25 (idx_main_v26 (ix4 (0 : Fin 1) a b j)) = ix1 j := by coords1
  simp only [e1, e2, e3, normed_eq]
  rfl

/-- The result at `(0, a, b, e)` is the row's output. -/
theorem out_eq (a b : Fin 512) (e : Fin 128) :
    val_main_v32 (F := Ideal) x0 x1 x2 x3 x4 x5 x6 (ix4 (0 : Fin 1) a b e)
      = RowMlp.out (row x0 a b) (fun j d => x1 (ix2 j d)) (fun e j => x2 (ix2 e j)) (fun j => x3 (ix1 j)) (fun e => x4 (ix1 e))
          (fun d => x5 (ix1 d)) (fun d => x6 (ix1 d)) e := by
  rw [val_main_v32_apply, val_main_v29_apply, val_main_v31_apply, val_main_v30_apply]
  have e1 : ∀ k : Fin 512, lidx_main_v29 (ix4 (0 : Fin 1) a b e) k = ix4 (0 : Fin 1) a b k := fun k => by coords4
  have e2 : ∀ k : Fin 512, ridx_main_v29 (ix4 (0 : Fin 1) a b e) k = ix2 e k := fun k => by coords2
  have e3 : idx_main_v30 (idx_main_v31 (ix4 (0 : Fin 1) a b e)) = ix1 e := by coords1
  simp only [e1, e2, e3, hidden_eq]
  rfl

/-- The reference's result is the row function applied to every row. -/
theorem result_eq : val_main_v32 (F := Ideal) x0 x1 x2 x3 x4 x5 x6 = RowMlp.G x0 x1 x2 x3 x4 x5 x6 := by
  funext i
  obtain ⟨z, a, b, e, rfl⟩ : ∃ (z : Fin 1) (a b : Fin 512) (e : Fin 128), i = ix4 z a b e := ⟨i 0, i 1, i 2, i 3, eq_ix4 i⟩
  obtain rfl : z = 0 := Fin.eq_zero z
  rw [out_eq]
  rfl

end Cert.ReferenceIdeal.RowValue

end
-- ==== Proof.lean ====
/-
  A layer normalisation followed by a two-layer perceptron, row by row.

  The kernel lays the `[1, 512, 512, 128]` input flat as 262144 rows of 128 and walks them in 64 blocks of 4096 rows. For
  each row it takes the mean and the variance over the 128 entries, scales the centred row by `(σ² + ε)^(-1/2)`, by
  `wn` and shifts it by `bn`; multiplies by the transposed first weight matrix, adds `b1` and rectifies; multiplies by
  the transposed second weight matrix and adds `b2`. The reference does the same over the rows in place, with the
  contractions written over the untransposed matrices.

  At the ideal values the changes of float format are the identity, a matrix product into a zero accumulator and the
  host's contraction are both the plain sum of products over the contracted axis, and the lane sum and the host's sum
  from the zero word are both the sum over the row. The two programs then apply one and the same function to every row,
  `Cert.RowMlp.out`, with the same three float words (128, ε, 0) in the same places; no algebraic law beyond
  re-indexing joins them, so the precondition is never opened.

  The kernel's side: entry `(p, q)` of a block's stored payload is the row function of row `p` of the loaded block
  (Proof/KernelRow.lean); block `t` covers flat rows `t · 4096 … t · 4096 + 4095`, the 64 blocks cover the array, and the
  final reshape puts flat row `a · 512 + b` at `(0, a, b, ·)` (Proof/KernelValue.lean, Proof/FlatRows.lean). The
  reference's side: stage by stage its value at `(0, a, b, ·)` is the row function's (Proof/RefRow.lean).
-/
import proofs.«139840_j55173149884461_1_alg».proof.Defs
import proofs.«139840_j55173149884461_1_alg».proof.Proof.Gen.Kernel
import proofs.«139840_j55173149884461_1_alg».proof.Proof.Gen.Kernel.Frame
import proofs.«139840_j55173149884461_1_alg».proof.Proof.Gen.KernelIdeal
import proofs.«139840_j55173149884461_1_alg».proof.Proof.Gen.KernelIdeal.Frame
import proofs.«139840_j55173149884461_1_alg».proof.Proof.Gen.ReferenceIdeal
import proofs.«139840_j55173149884461_1_alg».proof.Proof.Gen.ReferenceIdeal.Run
import proofs.«139840_j55173149884461_1_alg».proof.Proof.Gen.ReferenceIdeal.Read
import proofs.«139840_j55173149884461_1_alg».proof.Proof.Gen.Pre_finite_inputs
import proofs.«139840_j55173149884461_1_alg».proof.Proof.KernelValue
import proofs.«139840_j55173149884461_1_alg».proof.Proof.RefRow

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, both idealized programs end with the row function of every row of
    the input. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v32_eq _ _ _ _ _ _ _).trans ?_
  rw [Cert.ReferenceIdeal.RowValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
